-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x512 : Shape := ⟨2, ![64, 512]⟩
abbrev S512 : Shape := ⟨1, ![512]⟩
abbrev S512x512 : Shape := ⟨2, ![512, 512]⟩
abbrev S512x2 : Shape := ⟨2, ![512, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S512x2 .f32) (main_arg9 : FVec F S2 .f32) (main_v33 : IVec S_ 1) : IVec S_ 1 :=
  let main_v34 : FVec F S512x2 .f32 := Host.absf main_arg8
  let main_cst_12 : FVec F S_ .f32 := constant S_ .f32 0x7F800000#32
  let main_v35 : FVec F S512x2 .f32 := broadcastInDim S512x2 ![] bcast_S_S512x2 main_cst_12
  let main_v36 : IVec S512x2 1 := cmpf .olt main_v34 main_v35
  let main_c_13 : IVec S_ 1 := constantI S_ 1 1#1
  let main_v37 : IVec S_ 1 := (fun x v => Host.reduce IntOp.andi x v reducesTo_S512x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S512 .f32) (main_arg6 : FVec F S512 .f32) (main_arg7 : FVec F S512 .f32) (main_arg8 : FVec F S512x2 .f32) (main_arg9 : FVec F S2 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S64x512 .f32) (main_arg3 : FVec F S512 .f32) (main_arg4 : FVec F S512x512 .f32) (main_arg5 : FVec F S512 .f32) (main_arg6 : FVec F S512 .f32) (main_arg7 : FVec F S512 .f32) (main_arg8 : FVec F S512x2 .f32) (main_arg9 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S64x512 : Shape := ⟨2, ![64, 512]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x512 : Shape := ⟨2, ![50000, 512]⟩
abbrev S2000x64 : Shape := ⟨2, ![2000, 64]⟩
abbrev S2000x512 : Shape := ⟨2, ![2000, 512]⟩
abbrev S1x512 : Shape := ⟨2, ![1, 512]⟩
abbrev S50000x2 : Shape := ⟨2, ![50000, 2]⟩
abbrev S2000x2 : Shape := ⟨2, ![2000, 2]⟩
abbrev S1x2 : Shape := ⟨2, ![1, 2]⟩

abbrev nBuf : Space → Nat
  | .hbm => 58
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x2, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S50000x64, .f32⟩
  | .hbm, ⟨28, _⟩ => ⟨S50000x512, .f32⟩
  | .hbm, ⟨29, _⟩ => ⟨S_, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S_, .i32⟩
  | .hbm, ⟨35, _⟩ => ⟨S_, .f32⟩
  | .hbm, ⟨36, _⟩ => ⟨S512, .f32⟩
  | .hbm, ⟨37, _⟩ => ⟨S1x512, .f32⟩
  | .hbm, ⟨38, _⟩ => ⟨S_, .f32⟩
  | .hbm, ⟨39, _⟩ => ⟨S1x512, .f32⟩
  | .hbm, ⟨40, _⟩ => ⟨S1x512, .f32⟩
  | .hbm, ⟨41, _⟩ => ⟨S50000x512, .f32⟩
  | .hbm, ⟨42, _⟩ => ⟨S50000x512, .f32⟩
  | .hbm, ⟨43, _⟩ => ⟨S50000x512, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S512, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S50000x2, .f32⟩
  | .local _ .vmem, ⟨0, _⟩ => ⟨S2000x64, .f32⟩
  | .local _ .vmem, ⟨1, _⟩ => ⟨S2000x64, .f32⟩
  | .local _ .vmem, ⟨2, _⟩ => ⟨S64x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S512x2, .f32⟩
  | .local _ .vmem, ⟨15, _⟩ => ⟨S2, .f32⟩
  | .local _ .vmem, ⟨16, _⟩ => ⟨S2000x2, .f32⟩
  | .local _ .vmem, ⟨17, _⟩ => ⟨S2000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_cst_3 : Ref sig .tc := ⟨.hbm, 51, rfl⟩
abbrev main_call0_v12 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v19 : Ref sig .tc := ⟨.hbm, 56, rfl⟩
abbrev main_v20 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S512x512_S512x512_0_0 : ∀ a, (![0, 0] : Fin 2 → Nat) a + S512x512.size a ≤ S512x512.size a
  h_S512x512 : 0 < S512x512.numel
  inb_S2000x512_S2000x512_0_0 : ∀ a, (![0, 0] : Fin 2 → Nat) a + S2000x512.size a ≤ S2000x512.size a
  h_S2000x512 : 0 < S2000x512.numel
  reducesTo_S50000x512_S512_d0 : S50000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  shapeCasts_S2000x512_S2000x512 : S2000x512.ShapeCasts S2000x512
  shapeCasts_S512_S512 : S512.ShapeCasts S512
  inb_S512x2_S512x2_0_0 : ∀ a, (![0, 0] : Fin 2 → Nat) a + S512x2.size a ≤ S512x2.size a
  h_S512x2 : 0 < S512x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x512_S2000x512_1_0_0_1_n_n_wf : DotDims.WF S2000x64 S64x512 S2000x512 [1] [0] [0] [1] [] []
  dot_S2000x512_S512x512_S2000x512_1_0_0_1_n_n_wf : DotDims.WF S2000x512 S512x512 S2000x512 [1] [0] [0] [1] [] []
  dot_S2000x512_S512x2_S2000x2_1_0_0_1_n_n_wf : DotDims.WF S2000x512 S512x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S512.size a
  hwx1_1 : ∀ i : grid1.Coords, EltTy.bits .f32 = 32 ∨ (Rect.block (s := S512) S512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x2.size a ≤ S512x2.size a
  hwx1_5 : ∀ i : grid1.Coords, EltTy.bits .f32 = 32 ∨ (Rect.block (s := S512x2) S512x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2.size a ≤ S2.size a
  hwx1_6 : ∀ i : grid1.Coords, EltTy.bits .f32 = 32 ∨ (Rect.block (s := S2) S2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x2.size a ≤ S50000x2.size a
  hwx1_7 : ∀ i : grid1.Coords, EltTy.bits .f32 = 32 ∨ (Rect.block (s := S50000x2) S2000x2.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x512_S2000x512_1_0_0_1_n_n : DotDims S2000x64 S64x512 S2000x512 where
  lhsContracting := [1]
  rhsContracting := [0]
  lhsNonContracting := [0]
  rhsNonContracting := [1]
  lhsBatch := []
  rhsBatch := []
  wf := dot_S2000x64_S64x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x2_S2000x2_1_0_0_1_n_n : DotDims S2000x512 S512x2 S2000x2 where
  lhsContracting := [1]
  rhsContracting := [0]
  lhsNonContracting := [0]
  rhsNonContracting := [1]
  lhsBatch := []
  rhsBatch := []
  wf := dot_S2000x512_S512x2_S2000x2_1_0_0_1_n_n_wf

abbrev win0_0 : Pipeline.Window sig grid0 :=
  Pipeline.Window.ofSpec (Memref.whole main_v14) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S512x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S2000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x512 : Shape := ⟨2, ![64, 512]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x512 : Shape := ⟨2, ![50000, 512]⟩
abbrev S1x512 : Shape := ⟨2, ![1, 512]⟩
abbrev S50000x2 : Shape := ⟨2, ![50000, 2]⟩
abbrev S1x2 : Shape := ⟨2, ![1, 2]⟩

abbrev nBuf : Space → Nat
  | .hbm => 90
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x2, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S50000x64, .f32⟩
  | .hbm, ⟨28, _⟩ => ⟨S50000x512, .f32⟩
  | .hbm, ⟨29, _⟩ => ⟨S1x512, .f32⟩
  | .hbm, ⟨30, _⟩ => ⟨S50000x512, .f32⟩
  | .hbm, ⟨31, _⟩ => ⟨S50000x512, .f32⟩
  | .hbm, ⟨32, _⟩ => ⟨S_, .f32⟩
  | .hbm, ⟨33, _⟩ => ⟨S50000x512, .f32⟩
  | .hbm, ⟨34, _⟩ => ⟨S50000x512, .f32⟩
  | .hbm, ⟨35, _⟩ => ⟨S50000x512, .f32⟩
  | .hbm, ⟨36, _⟩ => ⟨S1x512, .f32⟩
  | .hbm, ⟨37, _⟩ => ⟨S50000x512, .f32⟩
  | .hbm, ⟨38, _⟩ => ⟨S50000x512, .f32⟩
  | .hbm, ⟨39, _⟩ => ⟨S_, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S_, .i32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S50000x512, .f32⟩
  | .hbm, ⟨52, _⟩ => ⟨S50000x512, .f32⟩
  | .hbm, ⟨53, _⟩ => ⟨S50000x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S512, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S1x512, .f32⟩
  | .hbm, ⟨68, _⟩ => ⟨S50000x512, .f32⟩
  | .hbm, ⟨69, _⟩ => ⟨S50000x512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S512, .f32⟩
  | .hbm, ⟨74, _⟩ => ⟨S1x512, .f32⟩
  | .hbm, ⟨75, _⟩ => ⟨S50000x512, .f32⟩
  | .hbm, ⟨76, _⟩ => ⟨S50000x512, .f32⟩
  | .hbm, ⟨77, _⟩ => ⟨S1x512, .f32⟩
  | .hbm, ⟨78, _⟩ => ⟨S50000x512, .f32⟩
  | .hbm, ⟨79, _⟩ => ⟨S50000x512, .f32⟩
  | .hbm, ⟨80, _⟩ => ⟨S1x512, .f32⟩
  | .hbm, ⟨81, _⟩ => ⟨S50000x512, .f32⟩
  | .hbm, ⟨82, _⟩ => ⟨S50000x512, .f32⟩
  | .hbm, ⟨83, _⟩ => ⟨S_, .f32⟩
  | .hbm, ⟨84, _⟩ => ⟨S50000x512, .f32⟩
  | .hbm, ⟨85, _⟩ => ⟨S50000x512, .f32⟩
  | .hbm, ⟨86, _⟩ => ⟨S50000x2, .f32⟩
  | .hbm, ⟨87, _⟩ => ⟨S1x2, .f32⟩
  | .hbm, ⟨88, _⟩ => ⟨S50000x2, .f32⟩
  | .hbm, ⟨89, _⟩ => ⟨S50000x2, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_cst_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_cst_1 : Ref sig .tc := ⟨.hbm, 55, rfl⟩
abbrev main_call1_v8 : Ref sig .tc := ⟨.hbm, 56, rfl⟩
abbrev main_call1_cst_2 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_cst_3 : Ref sig .tc := ⟨.hbm, 61, rfl⟩
abbrev main_call1_v12 : Ref sig .tc := ⟨.hbm, 62, rfl⟩
abbrev main_call1_cst_4 : Ref sig .tc := ⟨.hbm, 63, rfl⟩
abbrev main_call1_call0_v0 : Ref sig .tc := ⟨.hbm, 64, rfl⟩
abbrev main_call1_call0_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_4 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_call2_cst : Ref sig .tc := ⟨.hbm, 83, rfl⟩
abbrev main_call2_v0 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  reducesTo_S50000x512_S512_d0 : S50000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x512_S50000x512_1_0_0_1_n_n_wf : DotDims.WF S50000x64 S64x512 S50000x512 [1] [0] [0] [1] [] []
  dot_S50000x512_S512x512_S50000x512_1_0_0_1_n_n_wf : DotDims.WF S50000x512 S512x512 S50000x512 [1] [0] [0] [1] [] []
  dot_S50000x512_S512x2_S50000x2_1_0_0_1_n_n_wf : DotDims.WF S50000x512 S512x2 S50000x2 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x512_S50000x512_1_0_0_1_n_n : DotDims S50000x64 S64x512 S50000x512 where
  lhsContracting := [1]
  rhsContracting := [0]
  lhsNonContracting := [0]
  rhsNonContracting := [1]
  lhsBatch := []
  rhsBatch := []
  wf := dot_S50000x64_S64x512_S50000x512_1_0_0_1_n_n_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x2_S50000x2_1_0_0_1_n_n : DotDims S50000x512 S512x2 S50000x2 where
  lhsContracting := [1]
  rhsContracting := [0]
  lhsNonContracting := [0]
  rhsNonContracting := [1]
  lhsBatch := []
  rhsBatch := []
  wf := dot_S50000x512_S512x2_S50000x2_1_0_0_1_n_n_wf

class Facts : Prop extends Facts₀ where

variable [Facts]
-- ==== Proof.Spec.lean ====
/-
  One graph-isomorphism layer after its neighbour sum, as functions of whole arrays read entry by entry.

  With `X` the node features after aggregation, the hidden array is a two-layer perceptron applied to each row,
    `hidden (p, q) = (∑ k, max ((∑ j, X (p, j) · W₁ (j, k)) + b₁ k) 0 · W₂ (k, q)) + b₂ q`,
  and, given a per-column mean and variance of the hidden array, the result is the classifier applied to each row of
  the normalised, rectified hidden array,
    `logits (p, c) = (∑ k, max ((h (p, k) − mean k) · rsqrt (var k + ε) · γ k + β k) 0 · W_c (k, c)) + b_c c`.
  Both are stated for arrays of ANY number of rows: a row of the result depends on the same row of the first operand
  only (`hiddenAt_congr`, `logitsAt_congr`), so a tile of rows computes exactly its rows of the whole array.
  The zero of the rectifier and the `ε` of the normalisation stay the 32-bit words the programs spell; nothing here
  evaluates them.
-/
import Idealize.ShloMosaic.Lib.ValueIdx
import Idealize.ShloMosaic.PureOps.Ideal

noncomputable section

open scoped BigOperators

namespace GinSpec

open Idealize.ShloMosaic Idealize.ShloMosaic.ValueIdx

/-- An `a × b` array of extended reals. -/
abbrev Mat (a b : Nat) : Type := (⟨2, ![a, b]⟩ : Shape).Idx → EReal
/-- A vector of `a` extended reals. -/
abbrev Row (a : Nat) : Type := (⟨1, ![a]⟩ : Shape).Idx → EReal

/-- The rectifier's threshold, as the word both programs spell. -/
abbrev zero : EReal := Ideal.ofBits .f32 0x00000000#32
/-- The normalisation's `ε`, as the word both programs spell. -/
abbrev eps : EReal := Ideal.ofBits .f32 0x3727C5AC#32

variable {n n' f d e : Nat}

/-- One affine layer at an entry: row `p` of `X` against column `q` of `W`, plus the bias. -/
def denseAt (X : Mat n f) (W : Mat f d) (b : Row d) (p : Fin n) (q : Fin d) : EReal :=
  (∑ j : Fin f, X (ix2 p j) * W (ix2 j q)) + b (ix1 q)

/-- The perceptron at an entry: the rectified first layer's row `p` against column `q` of `W₂`, plus the bias. -/
def hiddenAt (X : Mat n f) (W1 : Mat f d) (b1 : Row d) (W2 : Mat d e) (b2 : Row e) (p : Fin n) (q : Fin e) : EReal :=
  (∑ k : Fin d, max (denseAt X W1 b1 p k) zero * W2 (ix2 k q)) + b2 (ix1 q)

/-- The perceptron applied to every row. -/
def hidden (X : Mat n f) (W1 : Mat f d) (b1 : Row d) (W2 : Mat d e) (b2 : Row e) : Mat n e :=
  fun i => hiddenAt X W1 b1 W2 b2 (i 0) (i 1)

/-- The batch normalisation at an entry, the statistics given. -/
def normAt (h : Mat n d) (mean var γ β : Row d) (p : Fin n) (k : Fin d) : EReal :=
  (h (ix2 p k) - mean (ix1 k)) * Ideal.rsqrt (var (ix1 k) + eps) * γ (ix1 k) + β (ix1 k)

/-- The classifier at an entry: the rectified normalised row `p` against column `c` of `W_c`, plus the bias. -/
def logitsAt (h : Mat n d) (mean var γ β : Row d) (Wc : Mat d e) (bc : Row e) (p : Fin n) (c : Fin e) : EReal :=
  (∑ k : Fin d, max (normAt h mean var γ β p k) zero * Wc (ix2 k c)) + bc (ix1 c)

/-- The classifier applied to every row. -/
def logits (h : Mat n d) (mean var γ β : Row d) (Wc : Mat d e) (bc : Row e) : Mat n e :=
  fun i => logitsAt h mean var γ β Wc bc (i 0) (i 1)

theorem hidden_apply (X : Mat n f) (W1 : Mat f d) (b1 : Row d) (W2 : Mat d e) (b2 : Row e) (p : Fin n) (q : Fin e) :
    hidden X W1 b1 W2 b2 (ix2 p q) = hiddenAt X W1 b1 W2 b2 p q := rfl

theorem logits_apply (h : Mat n d) (mean var γ β : Row d) (Wc : Mat d e) (bc : Row e) (p : Fin n) (c : Fin e) :
    logits h mean var γ β Wc bc (ix2 p c) = logitsAt h mean var γ β Wc bc p c := rfl

/-- A row of the perceptron's result reads only that row of the features: two feature arrays that agree on a row
    (of possibly different heights) give the same result row. -/
theorem hiddenAt_congr (X : Mat n f) (X' : Mat n' f) (W1 : Mat f d) (b1 : Row d) (W2 : Mat d e) (b2 : Row e)
    (p : Fin n) (p' : Fin n') (hrow : ∀ j, X (ix2 p j) = X' (ix2 p' j)) (q : Fin e) :
    hiddenAt X W1 b1 W2 b2 p q = hiddenAt X' W1 b1 W2 b2 p' q := by
  unfold hiddenAt denseAt
  simp only [hrow]

/-- A row of the classifier's result reads only that row of the hidden array. -/
theorem logitsAt_congr (h : Mat n d) (h' : Mat n' d) (mean var γ β : Row d) (Wc : Mat d e) (bc : Row e)
    (p : Fin n) (p' : Fin n') (hrow : ∀ k, h (ix2 p k) = h' (ix2 p' k)) (c : Fin e) :
    logitsAt h mean var γ β Wc bc p c = logitsAt h' mean var γ β Wc bc p' c := by
  unfold logitsAt normAt
  simp only [hrow]

end GinSpec

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.KBody.lean ====
/-
  What one tile of rows computes.

  The first kernel's body, on a tile of 2000 rows of the aggregated features and the whole weight arrays, leaves
  in its output tile the two-layer perceptron of exactly those rows; the second kernel's body, on a tile of 2000
  rows of the hidden array, the column statistics and the classifier's weights, leaves the classifier's result
  for exactly those rows.  At the exact instance a change of float format is the identity and a matrix product into
  a zero accumulator is the textbook sum, so each tile is the specification's function of its operands, entry by
  entry: row `p` against column `q`.
-/
import proofs.«140164_j23665269801081_1_alg».proof.Proof.Gen.KernelIdeal.Frame
import proofs.«140164_j23665269801081_1_alg».proof.Proof.Spec
import proofs.«140164_j23665269801081_1_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.KBody

open Cert.KernelIdeal Cert.KernelIdeal.Gen Idealize.ShloMosaic Idealize.ShloMosaic.ValueIdx

theorem hz2 : (![0, 0] : Fin 2 → Nat) = fun _ => 0 := funext fun a => by fin_cases a <;> rfl
theorem hz1 : (![0] : Fin 1 → Nat) = fun _ => 0 := funext fun a => by fin_cases a <;> rfl

theorem plain0 : PlainDot.IsPlain dot_S2000x64_S64x512_S2000x512_1_0_0_1_n_n := ⟨rfl, rfl, rfl, rfl, rfl, rfl⟩
theorem plain1 : PlainDot.IsPlain dot_S2000x512_S512x512_S2000x512_1_0_0_1_n_n := ⟨rfl, rfl, rfl, rfl, rfl, rfl⟩
theorem plain2 : PlainDot.IsPlain dot_S2000x512_S512x2_S2000x2_1_0_0_1_n_n := ⟨rfl, rfl, rfl, rfl, rfl, rfl⟩

/-- The first kernel's tile: the perceptron of the tile's rows. -/
theorem out0_5_eq (x0 : Vec Ideal S2000x64 .f32) (x1 : Vec Ideal S64x512 .f32) (x2 : Vec Ideal S512 .f32)
    (x3 : Vec Ideal S512x512 .f32) (x4 : Vec Ideal S512 .f32) :
    out0_5 x0 x1 x2 x3 x4 = GinSpec.hidden x0 x1 x2 x3 x4 := by
  unfold out0_5
  rw [View.canon_unit_zero hz2]
  simp only [View.ld_unit_zero (S := S2000x64) hz2, View.ld_unit_zero (S := S64x512) hz2,
    View.ld_unit_zero (S := S512) hz1, View.ld_unit_zero (S := S512x512) hz2]
  funext i
  obtain ⟨p, q, rfl⟩ : ∃ (p : Fin 2000) (q : Fin 512), i = ix2 p q := ⟨i 0, i 1, eq_ix2 i⟩
  rw [GinSpec.hidden_apply]
  unfold k0_pay1 GinSpec.hiddenAt GinSpec.denseAt
  simp only [addf_apply, PlainDot.matmul_zero_apply plain0, PlainDot.matmul_zero_apply plain1, truncf_apply,
    maximumf_apply, broadcast_apply, shapeCast_self, broadcastTo_1b_ab_apply, shapeCast_a_1a_apply]
  rfl

/-- The second kernel's tile: the classifier of the tile's rows, the statistics as given. -/
theorem out1_7_eq (x0 : Vec Ideal S2000x512 .f32) (x1 x2 x3 x4 : Vec Ideal S512 .f32) (x5 : Vec Ideal S512x2 .f32)
    (x6 : Vec Ideal S2 .f32) :
    out1_7 x0 x1 x2 x3 x4 x5 x6 = GinSpec.logits x0 x1 x2 x3 x4 x5 x6 := by
  unfold out1_7
  rw [View.canon_unit_zero hz2]
  simp only [View.ld_unit_zero (S := S2000x512) hz2, View.ld_unit_zero (S := S512x2) hz2,
    View.ld_unit_zero (S := S512) hz1, View.ld_unit_zero (S := S2) hz1]
  funext i
  obtain ⟨p, c, rfl⟩ : ∃ (p : Fin 2000) (c : Fin 2), i = ix2 p c := ⟨i 0, i 1, eq_ix2 i⟩
  rw [GinSpec.logits_apply]
  unfold k1_pay1 GinSpec.logitsAt GinSpec.normAt
  simp only [addf_apply, subf_apply, mulf_apply, PlainDot.matmul_zero_apply plain2, truncf_apply,
    maximumf_apply, broadcast_apply, shapeCast_self, broadcastTo_1b_ab_apply, shapeCast_a_1a_apply]
  rfl

end Cert.KernelIdeal.KBody

end
-- ==== Proof.KRegion0.lean ====
/-
  The first region's array: the perceptron of the aggregated features, row by row.

  The region runs the first kernel over 25 tiles of 2000 rows.  At tile `t` the row window's block is rows
  `2000 t … 2000 t + 1999` of the feature array, every weight window's block is its whole array, and the body leaves
  in the output tile the perceptron of those rows.  A row of the perceptron reads only the same row of the features,
  so tile `t` of the output is tile `t` of the perceptron of the WHOLE feature array; the 25 tiles cover the
  50000 rows, so after the region the output array is that perceptron.  Stated for any contents `V` the region is
  entered from.
-/
import proofs.«140164_j23665269801081_1_alg».proof.Proof.Gen.KernelIdeal.Frame
import proofs.«140164_j23665269801081_1_alg».proof.Proof.KBody
import Idealize.ShloMosaic.Lib.Pipeline.Value
import Idealize.ShloMosaic.Lib.ValueIdx

set_option maxRecDepth 16384

noncomputable section

namespace Cert.KernelIdeal.KRegion0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the row windows are at tile `t`, the weight windows at their one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem lt25 (t : Fin cfg0.N) : t.val < 25 := by
  have h := t.isLt
  have hN : cfg0.N = 25 := N_0
  omega

/-- The arrays the region reads, as it finds them. -/
abbrev feats (c : Dev nD) : Vec Ideal S50000x64 .f32 := V c main_v14
abbrev w1 (c : Dev nD) : Vec Ideal S64x512 .f32 := V c main_arg2
abbrev b1 (c : Dev nD) : Vec Ideal S512 .f32 := V c main_arg3
abbrev w2 (c : Dev nD) : Vec Ideal S512x512 .f32 := V c main_arg4
abbrev b2 (c : Dev nD) : Vec Ideal S512 .f32 := V c main_arg5

/-- The windows' blocks at a tile. -/
abbrev featsBlk (c : Dev nD) (t : Fin cfg0.N) : Vec Ideal S2000x64 .f32 := iblk0 V c 0 t
abbrev w1Blk (c : Dev nD) (t : Fin cfg0.N) : Vec Ideal S64x512 .f32 := iblk0 V c 1 t
abbrev b1Blk (c : Dev nD) (t : Fin cfg0.N) : Vec Ideal S512 .f32 := iblk0 V c 2 t
abbrev w2Blk (c : Dev nD) (t : Fin cfg0.N) : Vec Ideal S512x512 .f32 := iblk0 V c 3 t
abbrev b2Blk (c : Dev nD) (t : Fin cfg0.N) : Vec Ideal S512 .f32 := iblk0 V c 4 t

/-- Row `r` of tile `t`'s feature block is row `2000 t + r` of the feature array. -/
theorem featsBlk_apply (c : Dev nD) (t : Fin cfg0.N) (r : Fin 2000) (j : Fin 64) (h : t.val * 2000 + r.val < 50000) :
    featsBlk V c t (ix2 r j) = feats V c (ix2 ⟨t.val * 2000 + r.val, h⟩ j) := by
  obtain ⟨e0, e1, -⟩ := idx0 t
  unfold featsBlk iblk0
  rw [View.read_apply]
  show V c main_v14 _ = V c main_v14 _
  congr 1
  funext a
  apply Fin.ext
  match a with
  | ⟨0, _⟩ => show win0_0.index t (0 : Fin 2) * 2000 + 1 * r.val = t.val * 2000 + r.val; rw [e0]; omega
  | ⟨1, _⟩ => show win0_0.index t (1 : Fin 2) * 64 + 1 * j.val = j.val; rw [e1]; omega

theorem w1Blk_eq (c : Dev nD) (t : Fin cfg0.N) : w1Blk V c t = w1 V c := by
  obtain ⟨-, -, e0, e1, -⟩ := idx0 t
  funext y
  unfold w1Blk iblk0
  rw [View.read_apply]
  show V c main_arg2 _ = V c main_arg2 y
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 512 + 1 * (y 1).val = (y 1).val; rw [e1]; omega

theorem b1Blk_eq (c : Dev nD) (t : Fin cfg0.N) : b1Blk V c t = b1 V c := by
  obtain ⟨-, -, -, -, e0, -⟩ := idx0 t
  funext y
  unfold b1Blk iblk0
  rw [View.read_apply]
  show V c main_arg3 _ = V c main_arg3 y
  congr 1
  funext a
  apply Fin.ext
  match a with
  | ⟨0, _⟩ => show win0_2.index t (0 : Fin 1) * 512 + 1 * (y 0).val = (y 0).val; rw [e0]; omega

theorem w2Blk_eq (c : Dev nD) (t : Fin cfg0.N) : w2Blk V c t = w2 V c := by
  obtain ⟨-, -, -, -, -, e0, e1, -⟩ := idx0 t
  funext y
  unfold w2Blk iblk0
  rw [View.read_apply]
  show V c main_arg4 _ = V c main_arg4 y
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega

theorem b2Blk_eq (c : Dev nD) (t : Fin cfg0.N) : b2Blk V c t = b2 V c := by
  obtain ⟨-, -, -, -, -, -, -, e0, -⟩ := idx0 t
  funext y
  unfold b2Blk iblk0
  rw [View.read_apply]
  show V c main_arg5 _ = V c main_arg5 y
  congr 1
  funext a
  apply Fin.ext
  match a with
  | ⟨0, _⟩ => show win0_4.index t (0 : Fin 1) * 512 + 1 * (y 0).val = (y 0).val; rw [e0]; omega

/-- The hidden array: the perceptron of the whole feature array. -/
abbrev hiddenArr (c : Dev nD) : Vec Ideal S50000x512 .f32 :=
  GinSpec.hidden (feats V c) (w1 V c) (b1 V c) (w2 V c) (b2 V c)

/-- What tile `t` writes back is tile `t` of the hidden array. -/
theorem flushed_eq (c : Dev nD) (t : Fin cfg0.N) :
    (dat0 V c).flushed 5 t = ((cfg0.win 5).blk t).view.read (Elt Ideal) (hiddenArr V c) := by
  obtain ⟨-, -, -, -, -, -, -, -, e0, e1⟩ := idx0 t
  have ht := lt25 t
  show (cfg0.win 5).cut (grid0.coords t) ((dat0 V c).after 5 t) = _
  have e : (dat0 V c).after 5 t = out0_5 (featsBlk V c t) (w1Blk V c t) (b1Blk V c t) (w2Blk V c t) (b2Blk V c t) :=
    after0_5 V c t
  rw [e, KBody.out0_5_eq, w1Blk_eq, b1Blk_eq, w2Blk_eq, b2Blk_eq]
  show (GinSpec.hidden (featsBlk V c t) (w1 V c) (b1 V c) (w2 V c) (b2 V c) : Vec Ideal S2000x512 .f32)
      = fun j : S2000x512.Idx => hiddenArr V c (((cfg0.win 5).blk t).view.emb j)
  funext j
  obtain ⟨r, q, rfl⟩ : ∃ (r : Fin 2000) (q : Fin 512), j = ix2 r q := ⟨j 0, j 1, eq_ix2 j⟩
  have hr : r.val < 2000 := r.isLt
  have hrow : t.val * 2000 + r.val < 50000 := by omega
  have he : ((cfg0.win 5).blk t).view.emb (ix2 r q) = ix2 (⟨t.val * 2000 + r.val, hrow⟩ : Fin 50000) q := by
    funext a
    apply Fin.ext
    match a with
    | ⟨0, _⟩ => show win0_5.index t (0 : Fin 2) * 2000 + 1 * r.val = t.val * 2000 + r.val; rw [e0]; omega
    | ⟨1, _⟩ => show win0_5.index t (1 : Fin 2) * 512 + 1 * q.val = q.val; rw [e1]; omega
  show GinSpec.hidden (featsBlk V c t) (w1 V c) (b1 V c) (w2 V c) (b2 V c) (ix2 r q)
      = GinSpec.hidden (feats V c) (w1 V c) (b1 V c) (w2 V c) (b2 V c) (((cfg0.win 5).blk t).view.emb (ix2 r q))
  rw [he, GinSpec.hidden_apply, GinSpec.hidden_apply]
  exact GinSpec.hiddenAt_congr _ _ _ _ _ _ _ _ (fun k => featsBlk_apply V c t r k hrow) _

/-- After the region the output array is the hidden array. -/
theorem final (c : Dev nD) : (dat0 V c).arrAt 5 cfg0.N = hiddenArr V c :=
  (dat0 V c).arrAt_eq_of_cover 5 (hiddenArr V c) (fun t _ => flushed_eq V c t) fun i => by
    have hi0 : (i 0).val < 50000 := (i 0).isLt
    have hi1 : (i 1).val < 512 := (i 1).isLt
    have hN : cfg0.N = 25 := N_0
    let t : Fin cfg0.N := ⟨(i 0).val / 2000, by rw [hN]; omega⟩
    obtain ⟨-, -, -, -, -, -, -, -, e0, e1⟩ := idx0 t
    refine ⟨t, flush0_5 t, ?_⟩
    show i ∈ ((View.whole main_v15).slice (win0_5.rect t)).set
    rw [View.set_slice_whole, Rect.mem_set_unit]
    intro a
    match a with
    | ⟨0, _⟩ =>
      show win0_5.index t (0 : Fin 2) * 2000 ≤ (i 0).val ∧ (i 0).val < win0_5.index t (0 : Fin 2) * 2000 + 2000
      rw [e0]; show (i 0).val / 2000 * 2000 ≤ (i 0).val ∧ (i 0).val < (i 0).val / 2000 * 2000 + 2000; omega
    | ⟨1, _⟩ =>
      show win0_5.index t (1 : Fin 2) * 512 ≤ (i 1).val ∧ (i 1).val < win0_5.index t (1 : Fin 2) * 512 + 512
      rw [e1]; omega

end Cert.KernelIdeal.KRegion0

end
-- ==== Proof.KRegion1.lean ====
/-
  The second region's array: the classifier of the normalised hidden array, row by row.

  The region runs the second kernel over 25 tiles of 2000 rows of the hidden array.  At tile `t` the row window's
  block is rows `2000 t … 2000 t + 1999` of the hidden array; the column mean, the column variance, the scale, the
  shift, the classifier's weights and its bias are each one block, the whole array.  The body leaves in the output
  tile the classifier's result for those rows, a row of which reads only the same row of the hidden array, so tile
  `t` of the output is tile `t` of the classifier applied to the WHOLE hidden array; the tiles cover the 50000
  rows.  Stated for any contents `V` the region is entered from.
-/
import proofs.«140164_j23665269801081_1_alg».proof.Proof.Gen.KernelIdeal.Frame
import proofs.«140164_j23665269801081_1_alg».proof.Proof.KBody
import Idealize.ShloMosaic.Lib.Pipeline.Value
import Idealize.ShloMosaic.Lib.ValueIdx

set_option maxRecDepth 16384

noncomputable section

namespace Cert.KernelIdeal.KRegion1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the row windows are at tile `t`, every other window at its one block. -/
theorem idx1 : ∀ t : Fin cfg1.N,
    win1_0.index t (0 : Fin 2) = t.val ∧ win1_0.index t (1 : Fin 2) = 0
    ∧ win1_1.index t (0 : Fin 1) = 0
    ∧ win1_2.index t (0 : Fin 1) = 0
    ∧ win1_3.index t (0 : Fin 1) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

theorem lt25 (t : Fin cfg1.N) : t.val < 25 := by
  have h := t.isLt
  have hN : cfg1.N = 25 := N_1
  omega

/-- The arrays the region reads, as it finds them. -/
abbrev hid (c : Dev nD) : Vec Ideal S50000x512 .f32 := V c main_v15
abbrev mean (c : Dev nD) : Vec Ideal S512 .f32 := V c main_v18
abbrev var (c : Dev nD) : Vec Ideal S512 .f32 := V c main_v19
abbrev gam (c : Dev nD) : Vec Ideal S512 .f32 := V c main_arg6
abbrev bet (c : Dev nD) : Vec Ideal S512 .f32 := V c main_arg7
abbrev wc (c : Dev nD) : Vec Ideal S512x2 .f32 := V c main_arg8
abbrev bc (c : Dev nD) : Vec Ideal S2 .f32 := V c main_arg9

/-- The windows' blocks at a tile. -/
abbrev hidBlk (c : Dev nD) (t : Fin cfg1.N) : Vec Ideal S2000x512 .f32 := iblk1 V c 0 t
abbrev meanBlk (c : Dev nD) (t : Fin cfg1.N) : Vec Ideal S512 .f32 := iblk1 V c 1 t
abbrev varBlk (c : Dev nD) (t : Fin cfg1.N) : Vec Ideal S512 .f32 := iblk1 V c 2 t
abbrev gamBlk (c : Dev nD) (t : Fin cfg1.N) : Vec Ideal S512 .f32 := iblk1 V c 3 t
abbrev betBlk (c : Dev nD) (t : Fin cfg1.N) : Vec Ideal S512 .f32 := iblk1 V c 4 t
abbrev wcBlk (c : Dev nD) (t : Fin cfg1.N) : Vec Ideal S512x2 .f32 := iblk1 V c 5 t
abbrev bcBlk (c : Dev nD) (t : Fin cfg1.N) : Vec Ideal S2 .f32 := iblk1 V c 6 t

/-- Row `r` of tile `t`'s hidden block is row `2000 t + r` of the hidden array. -/
theorem hidBlk_apply (c : Dev nD) (t : Fin cfg1.N) (r : Fin 2000) (k : Fin 512) (h : t.val * 2000 + r.val < 50000) :
    hidBlk V c t (ix2 r k) = hid V c (ix2 ⟨t.val * 2000 + r.val, h⟩ k) := by
  obtain ⟨e0, e1, -⟩ := idx1 t
  unfold hidBlk iblk1
  rw [View.read_apply]
  show V c main_v15 _ = V c main_v15 _
  congr 1
  funext a
  apply Fin.ext
  match a with
  | ⟨0, _⟩ => show win1_0.index t (0 : Fin 2) * 2000 + 1 * r.val = t.val * 2000 + r.val; rw [e0]; omega
  | ⟨1, _⟩ => show win1_0.index t (1 : Fin 2) * 512 + 1 * k.val = k.val; rw [e1]; omega

theorem meanBlk_eq (c : Dev nD) (t : Fin cfg1.N) : meanBlk V c t = mean V c := by
  obtain ⟨-, -, e0, -⟩ := idx1 t
  funext y
  unfold meanBlk iblk1
  rw [View.read_apply]
  show V c main_v18 _ = V c main_v18 y
  congr 1
  funext a
  apply Fin.ext
  match a with
  | ⟨0, _⟩ => show win1_1.index t (0 : Fin 1) * 512 + 1 * (y 0).val = (y 0).val; rw [e0]; omega

theorem varBlk_eq (c : Dev nD) (t : Fin cfg1.N) : varBlk V c t = var V c := by
  obtain ⟨-, -, -, e0, -⟩ := idx1 t
  funext y
  unfold varBlk iblk1
  rw [View.read_apply]
  show V c main_v19 _ = V c main_v19 y
  congr 1
  funext a
  apply Fin.ext
  match a with
  | ⟨0, _⟩ => show win1_2.index t (0 : Fin 1) * 512 + 1 * (y 0).val = (y 0).val; rw [e0]; omega

theorem gamBlk_eq (c : Dev nD) (t : Fin cfg1.N) : gamBlk V c t = gam V c := by
  obtain ⟨-, -, -, -, e0, -⟩ := idx1 t
  funext y
  unfold gamBlk iblk1
  rw [View.read_apply]
  show V c main_arg6 _ = V c main_arg6 y
  congr 1
  funext a
  apply Fin.ext
  match a with
  | ⟨0, _⟩ => show win1_3.index t (0 : Fin 1) * 512 + 1 * (y 0).val = (y 0).val; rw [e0]; omega

theorem betBlk_eq (c : Dev nD) (t : Fin cfg1.N) : betBlk V c t = bet V c := by
  obtain ⟨-, -, -, -, -, e0, -⟩ := idx1 t
  funext y
  unfold betBlk iblk1
  rw [View.read_apply]
  show V c main_arg7 _ = V c main_arg7 y
  congr 1
  funext a
  apply Fin.ext
  match a with
  | ⟨0, _⟩ => show win1_4.index t (0 : Fin 1) * 512 + 1 * (y 0).val = (y 0).val; rw [e0]; omega

theorem wcBlk_eq (c : Dev nD) (t : Fin cfg1.N) : wcBlk V c t = wc V c := by
  obtain ⟨-, -, -, -, -, -, e0, e1, -⟩ := idx1 t
  funext y
  unfold wcBlk iblk1
  rw [View.read_apply]
  show V c main_arg8 _ = V c main_arg8 y
  congr 1
  funext a
  apply Fin.ext
  match a with
  | ⟨0, _⟩ => show win1_5.index t (0 : Fin 2) * 512 + 1 * (y 0).val = (y 0).val; rw [e0]; omega
  | ⟨1, _⟩ => show win1_5.index t (1 : Fin 2) * 2 + 1 * (y 1).val = (y 1).val; rw [e1]; omega

theorem bcBlk_eq (c : Dev nD) (t : Fin cfg1.N) : bcBlk V c t = bc V c := by
  obtain ⟨-, -, -, -, -, -, -, -, e0, -⟩ := idx1 t
  funext y
  unfold bcBlk iblk1
  rw [View.read_apply]
  show V c main_arg9 _ = V c main_arg9 y
  congr 1
  funext a
  apply Fin.ext
  match a with
  | ⟨0, _⟩ => show win1_6.index t (0 : Fin 1) * 2 + 1 * (y 0).val = (y 0).val; rw [e0]; omega

/-- The result array: the classifier of the whole hidden array, the statistics as the region finds them. -/
abbrev logitsArr (c : Dev nD) : Vec Ideal S50000x2 .f32 :=
  GinSpec.logits (hid V c) (mean V c) (var V c) (gam V c) (bet V c) (wc V c) (bc V c)

/-- What tile `t` writes back is tile `t` of the result array. -/
theorem flushed_eq (c : Dev nD) (t : Fin cfg1.N) :
    (dat1 V c).flushed 7 t = ((cfg1.win 7).blk t).view.read (Elt Ideal) (logitsArr V c) := by
  obtain ⟨-, -, -, -, -, -, -, -, -, e0, e1⟩ := idx1 t
  have ht := lt25 t
  show (cfg1.win 7).cut (grid1.coords t) ((dat1 V c).after 7 t) = _
  have e : (dat1 V c).after 7 t = out1_7 (hidBlk V c t) (meanBlk V c t) (varBlk V c t) (gamBlk V c t) (betBlk V c t)
      (wcBlk V c t) (bcBlk V c t) := after1_7 V c t
  rw [e, KBody.out1_7_eq, meanBlk_eq, varBlk_eq, gamBlk_eq, betBlk_eq, wcBlk_eq, bcBlk_eq]
  show (GinSpec.logits (hidBlk V c t) (mean V c) (var V c) (gam V c) (bet V c) (wc V c) (bc V c) : Vec Ideal S2000x2 .f32)
      = fun j : S2000x2.Idx => logitsArr V c (((cfg1.win 7).blk t).view.emb j)
  funext j
  obtain ⟨r, q, rfl⟩ : ∃ (r : Fin 2000) (q : Fin 2), j = ix2 r q := ⟨j 0, j 1, eq_ix2 j⟩
  have hr : r.val < 2000 := r.isLt
  have hrow : t.val * 2000 + r.val < 50000 := by omega
  have he : ((cfg1.win 7).blk t).view.emb (ix2 r q) = ix2 (⟨t.val * 2000 + r.val, hrow⟩ : Fin 50000) q := by
    funext a
    apply Fin.ext
    match a with
    | ⟨0, _⟩ => show win1_7.index t (0 : Fin 2) * 2000 + 1 * r.val = t.val * 2000 + r.val; rw [e0]; omega
    | ⟨1, _⟩ => show win1_7.index t (1 : Fin 2) * 2 + 1 * q.val = q.val; rw [e1]; omega
  show GinSpec.logits (hidBlk V c t) (mean V c) (var V c) (gam V c) (bet V c) (wc V c) (bc V c) (ix2 r q)
      = GinSpec.logits (hid V c) (mean V c) (var V c) (gam V c) (bet V c) (wc V c) (bc V c) (((cfg1.win 7).blk t).view.emb (ix2 r q))
  rw [he, GinSpec.logits_apply, GinSpec.logits_apply]
  exact GinSpec.logitsAt_congr _ _ _ _ _ _ _ _ _ _ (fun k => hidBlk_apply V c t r k hrow) _

/-- After the region the output array is the result array. -/
theorem final (c : Dev nD) : (dat1 V c).arrAt 7 cfg1.N = logitsArr V c :=
  (dat1 V c).arrAt_eq_of_cover 7 (logitsArr V c) (fun t _ => flushed_eq V c t) fun i => by
    have hi0 : (i 0).val < 50000 := (i 0).isLt
    have hi1 : (i 1).val < 2 := (i 1).isLt
    have hN : cfg1.N = 25 := N_1
    let t : Fin cfg1.N := ⟨(i 0).val / 2000, by rw [hN]; omega⟩
    obtain ⟨-, -, -, -, -, -, -, -, -, e0, e1⟩ := idx1 t
    refine ⟨t, flush1_7 t, ?_⟩
    show i ∈ ((View.whole main_v20).slice (win1_7.rect t)).set
    rw [View.set_slice_whole, Rect.mem_set_unit]
    intro a
    match a with
    | ⟨0, _⟩ =>
      show win1_7.index t (0 : Fin 2) * 2000 ≤ (i 0).val ∧ (i 0).val < win1_7.index t (0 : Fin 2) * 2000 + 2000
      rw [e0]; show (i 0).val / 2000 * 2000 ≤ (i 0).val ∧ (i 0).val < (i 0).val / 2000 * 2000 + 2000; omega
    | ⟨1, _⟩ =>
      show win1_7.index t (1 : Fin 2) * 2 ≤ (i 1).val ∧ (i 1).val < win1_7.index t (1 : Fin 2) * 2 + 2
      rw [e1]; omega

end Cert.KernelIdeal.KRegion1

end
-- ==== Proof.KHost.lean ====
/-
  The host operations around the two regions, as functions of the arrays they read.

  Before the first region the program sums, into every node, the features of the nodes at the other end of its
  incoming edges (a gather along the source row of the edge table, negative entries wrapped once, then a scatter
  that adds along the destination row) and adds the node's own features: `pre`.  Between the regions it takes the
  hidden array's column mean (the column sums over 50000) and its column variance (the mean of the squared
  deviations from the column mean, guarded by a count that is positive): `colMean`, `colVar`.  None of the three
  is opened anywhere: the reference applies the same operations, and the certificate only needs them as the same
  functions on both sides.  Here: the buffers the regions are entered from hold these terms.
-/
import proofs.«140164_j23665269801081_1_alg».proof.Proof.Gen.KernelIdeal.Frame
import Idealize.ShloMosaic.Lib.StableHlo.Run
import Idealize.ShloMosaic.PureOps.Ideal

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo

/-- The node features after the neighbour sum. -/
def pre (x : FVec Ideal S50000x64 .f32) (ei : IVec S2x800000 32) : FVec Ideal S50000x64 .f32 :=
  let src : IVec S800000 32 :=
    shapeCast S800000 (extractStridedSlice S1x800000 ![0, 0] ei slices_S2x800000_S1x800000_0_0) shapeCasts_S1x800000_S800000
  let dst : IVec S800000 32 :=
    shapeCast S800000 (extractStridedSlice S1x800000 ![1, 0] ei slices_S2x800000_S1x800000_1_0) shapeCasts_S1x800000_S800000
  let wrapped : IVec S800000 32 :=
    select (cmpi .slt src (broadcastInDim S800000 ![] bcast_S_S800000 (constantI S_ 32 0#32)))
      (addi src (broadcastInDim S800000 ![] bcast_S_S800000 (constantI S_ 32 50000#32))) src
  addf x (Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0 wrapped)))

/-- The column mean of the hidden array. -/
def colMean (h : FVec Ideal S50000x512 .f32) : FVec Ideal S512 .f32 :=
  Host.divf (Host.reduceAdd h (constant S_ .f32 0x00000000#32) reducesTo_S50000x512_S512_d0 h_S_)
    (broadcastInDim S512 ![] bcast_S_S512 (constant S_ .f32 0x47435000#32))

/-- The column variance of the hidden array. -/
def colVar (h : FVec Ideal S50000x512 .f32) : FVec Ideal S512 .f32 :=
  let zero : FVec Ideal S_ .f32 := constant S_ .f32 0x00000000#32
  let n : FVec Ideal S_ .f32 := constant S_ .f32 0x47435000#32
  let mean1 : FVec Ideal S1x512 .f32 :=
    Host.divf (broadcastInDim S1x512 ![1] bcast_S512_S1x512_1 (Host.reduceAdd h zero reducesTo_S50000x512_S512_d0 h_S_))
      (broadcastInDim S1x512 ![] bcast_S_S1x512 n)
  let dev : FVec Ideal S50000x512 .f32 := subf h (broadcastInDim S50000x512 ![0, 1] bcast_S1x512_S50000x512_0_1 mean1)
  let count : FVec Ideal S_ .f32 := subf n (sitofp .f32 (constantI S_ 32 0#32))
  let v : FVec Ideal S512 .f32 :=
    Host.divf (Host.reduceAdd (mulf dev dev) zero reducesTo_S50000x512_S512_d0 h_S_) (broadcastInDim S512 ![] bcast_S_S512 count)
  select (broadcastInDim S512 ![] bcast_S_S512 (cmpf .ogt count zero)) v
    (broadcastInDim S512 ![] bcast_S_S512 (constant S_ .f32 0x7FC00000#32))

variable (U : Valuation τ sig (Elt Ideal))

attribute [local irreducible] Host.reduceAdd Host.gather Host.scatterAdd

/-- The first region's feature array, from any contents: `pre` of the first two arguments. -/
theorem feats_eq :
    StableHlo.after hostOps0 U (Proc.devRef .tc main_v14) = pre (U (Proc.devRef .tc main_arg0)) (U (Proc.devRef .tc main_arg1)) := by
  after_results
  rfl

/-- No operation before the first region writes a weight or bias argument. -/
theorem keep0_arg2 : StableHlo.after hostOps0 U (Proc.devRef .tc main_arg2) = U (Proc.devRef .tc main_arg2) := by after_results
theorem keep0_arg3 : StableHlo.after hostOps0 U (Proc.devRef .tc main_arg3) = U (Proc.devRef .tc main_arg3) := by after_results
theorem keep0_arg4 : StableHlo.after hostOps0 U (Proc.devRef .tc main_arg4) = U (Proc.devRef .tc main_arg4) := by after_results
theorem keep0_arg5 : StableHlo.after hostOps0 U (Proc.devRef .tc main_arg5) = U (Proc.devRef .tc main_arg5) := by after_results

/-- The second region's mean operand: `colMean` of the hidden array's buffer. -/
theorem mean_eq :
    StableHlo.after hostOps1_1 (StableHlo.after hostOps1 U) (Proc.devRef .tc main_v18) = colMean (U (Proc.devRef .tc main_v15)) := by
  after_results_simp
  rfl

/-- The second region's variance operand: `colVar` of the hidden array's buffer. -/
theorem var_eq :
    StableHlo.after hostOps1_1 (StableHlo.after hostOps1 U) (Proc.devRef .tc main_v19) = colVar (U (Proc.devRef .tc main_v15)) := by
  after_results_simp
  rfl

/-- The hidden array's buffer is not written between the regions. -/
theorem hid_eq :
    StableHlo.after hostOps1_1 (StableHlo.after hostOps1 U) (Proc.devRef .tc main_v15) = U (Proc.devRef .tc main_v15) := by
  after_results_simp

end Cert.KernelIdeal.KHost

end
-- ==== Proof.KValue.lean ====
/-
  The kernel program's result as one function of its arguments.

  Reading the program's boundaries backwards: the result buffer ends at what the second region's write-backs
  leave, the classifier of the hidden array it was entered with, at the column statistics it was entered with; those
  are the column mean and variance of what the first region left in the hidden array's buffer, which no operation in
  between writes; and the first region left the perceptron of the features it was entered with, the neighbour sum
  of the first two arguments.  The weight, bias, scale and shift buffers are the arguments' throughout.
-/
import proofs.«140164_j23665269801081_1_alg».proof.Proof.Gen.KernelIdeal.Frame
import proofs.«140164_j23665269801081_1_alg».proof.Proof.KRun
import proofs.«140164_j23665269801081_1_alg».proof.Proof.KRegion0
import proofs.«140164_j23665269801081_1_alg».proof.Proof.KRegion1
import proofs.«140164_j23665269801081_1_alg».proof.Proof.KHost

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The hidden array as a function of the launch memory. -/
abbrev hiddenOf (c : Dev nD) : FVec Ideal S50000x512 .f32 :=
  GinSpec.hidden (KHost.pre (m ((c.tc : Thread nD τ).loc main_arg0)) (m ((c.tc : Thread nD τ).loc main_arg1)))
    (m ((c.tc : Thread nD τ).loc main_arg2)) (m ((c.tc : Thread nD τ).loc main_arg3))
    (m ((c.tc : Thread nD τ).loc main_arg4)) (m ((c.tc : Thread nD τ).loc main_arg5))

/-- The result array as a function of the launch memory. -/
abbrev resultOf (c : Dev nD) : FVec Ideal S50000x2 .f32 :=
  GinSpec.logits (hiddenOf m c) (KHost.colMean (hiddenOf m c)) (KHost.colVar (hiddenOf m c))
    (m ((c.tc : Thread nD τ).loc main_arg6)) (m ((c.tc : Thread nD τ).loc main_arg7))
    (m ((c.tc : Thread nD τ).loc main_arg8)) (m ((c.tc : Thread nD τ).loc main_arg9))

/-! ## The first region's entry contents -/

theorem V1_feats (c : Dev nD) :
    V1 m ρ c main_v14 = KHost.pre (m ((c.tc : Thread nD τ).loc main_arg0)) (m ((c.tc : Thread nD τ).loc main_arg1)) :=
  KHost.feats_eq (W0 m ρ c)

theorem V1_arg2 (c : Dev nD) : V1 m ρ c main_arg2 = m ((c.tc : Thread nD τ).loc main_arg2) := KHost.keep0_arg2 (W0 m ρ c)
theorem V1_arg3 (c : Dev nD) : V1 m ρ c main_arg3 = m ((c.tc : Thread nD τ).loc main_arg3) := KHost.keep0_arg3 (W0 m ρ c)
theorem V1_arg4 (c : Dev nD) : V1 m ρ c main_arg4 = m ((c.tc : Thread nD τ).loc main_arg4) := KHost.keep0_arg4 (W0 m ρ c)
theorem V1_arg5 (c : Dev nD) : V1 m ρ c main_arg5 = m ((c.tc : Thread nD τ).loc main_arg5) := KHost.keep0_arg5 (W0 m ρ c)

/-- What the first region leaves in the hidden array's buffer. -/
theorem W2_hidden (c : Dev nD) : W2 m ρ c (Proc.devRef .tc main_v15) = hiddenOf m c := by
  have h : W2 m ρ c (Proc.devRef .tc main_v15) = (dat0 (V1 m ρ) c).arrAt 5 cfg0.N := W2_arr m ρ c 5
  rw [h, KRegion0.final]
  show GinSpec.hidden (V1 m ρ c main_v14) (V1 m ρ c main_arg2) (V1 m ρ c main_arg3) (V1 m ρ c main_arg4) (V1 m ρ c main_arg5) = _
  rw [V1_feats, V1_arg2, V1_arg3, V1_arg4, V1_arg5]

/-! ## The second region's entry contents -/

theorem V4_hidden (c : Dev nD) : V4 m ρ c main_v15 = hiddenOf m c :=
  (KHost.hid_eq (W2 m ρ c)).trans (W2_hidden m ρ c)

theorem V4_mean (c : Dev nD) : V4 m ρ c main_v18 = KHost.colMean (hiddenOf m c) := by
  have h : V4 m ρ c main_v18 = KHost.colMean (W2 m ρ c (Proc.devRef .tc main_v15)) := KHost.mean_eq (W2 m ρ c)
  rw [h, W2_hidden]

theorem V4_var (c : Dev nD) : V4 m ρ c main_v19 = KHost.colVar (hiddenOf m c) := by
  have h : V4 m ρ c main_v19 = KHost.colVar (W2 m ρ c (Proc.devRef .tc main_v15)) := KHost.var_eq (W2 m ρ c)
  rw [h, W2_hidden]

theorem V4_arg6 (c : Dev nD) : V4 m ρ c main_arg6 = m ((c.tc : Thread nD τ).loc main_arg6) :=
  ((W5_arr m ρ c 3).trans (((dat1 (V4 m ρ) c).arrAt_in 3 rfl _).trans (A_eq1 (V4 m ρ) c 3))).symm.trans (W5_main_arg6 m ρ c)
theorem V4_arg7 (c : Dev nD) : V4 m ρ c main_arg7 = m ((c.tc : Thread nD τ).loc main_arg7) :=
  ((W5_arr m ρ c 4).trans (((dat1 (V4 m ρ) c).arrAt_in 4 rfl _).trans (A_eq1 (V4 m ρ) c 4))).symm.trans (W5_main_arg7 m ρ c)
theorem V4_arg8 (c : Dev nD) : V4 m ρ c main_arg8 = m ((c.tc : Thread nD τ).loc main_arg8) :=
  ((W5_arr m ρ c 5).trans (((dat1 (V4 m ρ) c).arrAt_in 5 rfl _).trans (A_eq1 (V4 m ρ) c 5))).symm.trans (W5_main_arg8 m ρ c)
theorem V4_arg9 (c : Dev nD) : V4 m ρ c main_arg9 = m ((c.tc : Thread nD τ).loc main_arg9) :=
  ((W5_arr m ρ c 6).trans (((dat1 (V4 m ρ) c).arrAt_in 6 rfl _).trans (A_eq1 (V4 m ρ) c 6))).symm.trans (W5_main_arg9 m ρ c)

/-! ## The result -/

/-- What the second region leaves in the result buffer. -/
theorem W5_result (c : Dev nD) : W5 m ρ c (Proc.devRef .tc main_v20) = resultOf m c := by
  have h : W5 m ρ c (Proc.devRef .tc main_v20) = (dat1 (V4 m ρ) c).arrAt 7 cfg1.N := W5_arr m ρ c 7
  rw [h, KRegion1.final]
  show GinSpec.logits (V4 m ρ c main_v15) (V4 m ρ c main_v18) (V4 m ρ c main_v19) (V4 m ρ c main_arg6)
    (V4 m ρ c main_arg7) (V4 m ρ c main_arg8) (V4 m ρ c main_arg9) = _
  rw [V4_hidden, V4_mean, V4_var, V4_arg6, V4_arg7, V4_arg8, V4_arg9]

/-- The program's run, read: the result buffer at `resultOf` of the launch memory, the arguments unchanged. -/
theorem run_value : θ_run (defs (F := Ideal)) (onTc (τ := τ) (main (F := Ideal))) ⟨m, fun _ => 0, ρ⟩ (fun r => ∀ c : Dev nD,
      r.2.mem ((c.tc : Thread nD τ).loc main_v20) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (W5_result m ρ c), (h c).2⟩) (KRun.run_result m ρ)

end Cert.KernelIdeal.KValue

end
-- ==== Proof.RefRun.lean ====
/-
  The reference program's @main as ONE list of host operations, and its run read back.

  @main calls three outlined functions: the rectifier twice and the column variance once (which itself calls the
  three-operand select).  A call executes the callee's body on the operands, so each call is written here as the
  callee's operations at the call site, over that call's own buffers: the rectifier's three, the variance's nineteen
  followed by the select's three.  With @main's own fifty-two that is eighty operations in program order.  The
  program equals the straight line of those operations once the callee definitions are unfolded and the sequencing
  is re-associated; a straight line over a signature that scopes nothing terminates from any memory with zero
  counters, and every buffer ends at the operations' fold over the launch contents.
-/
import proofs.«140164_j23665269801081_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's eighty operations in order, the three calls written out at their call sites. -/
abbrev ops : List (HloOp τ sig (Elt F)) :=
  [ -- the two rows of the edge list, each as a vector of node numbers
    unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    -- a negative source number counts from the end
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    -- the source rows gathered, then summed into their destination rows, then added to the features
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_arg0 main_v13 main_v14 (addf : (⟨S50000x64, .f32⟩ : BufTy).Contents (Elt F) → (⟨S50000x64, .f32⟩ : BufTy).Contents (Elt F) → (⟨S50000x64, .f32⟩ : BufTy).Contents (Elt F)),
    -- the first affine layer
    binary main_v14 main_arg2 main_v15 ((fun l r => Host.dotGeneral dot_S50000x64_S64x512_S50000x512_1_0_0_1_n_n none l r) : (⟨S50000x64, .f32⟩ : BufTy).Contents (Elt F) → (⟨S64x512, .f32⟩ : BufTy).Contents (Elt F) → (⟨S50000x512, .f32⟩ : BufTy).Contents (Elt F)),
    unary main_arg3 main_v16 (broadcastInDim S1x512 ![1] bcast_S512_S1x512_1 : (⟨S512, .f32⟩ : BufTy).Contents (Elt F) → (⟨S1x512, .f32⟩ : BufTy).Contents (Elt F)),
    unary main_v16 main_v17 (broadcastInDim S50000x512 ![0, 1] bcast_S1x512_S50000x512_0_1 : (⟨S1x512, .f32⟩ : BufTy).Contents (Elt F) → (⟨S50000x512, .f32⟩ : BufTy).Contents (Elt F)),
    binary main_v15 main_v17 main_v18 (addf : (⟨S50000x512, .f32⟩ : BufTy).Contents (Elt F) → (⟨S50000x512, .f32⟩ : BufTy).Contents (Elt F) → (⟨S50000x512, .f32⟩ : BufTy).Contents (Elt F)),
    -- the rectifier, first call: the zero, its broadcast, the maximum
    TRef.nullary main_call0.cst (constant S_ .f32 0x00000000#32),
    TRef.unary main_call0.cst main_call0.v0 (broadcastInDim S50000x512 ![] bcast_S_S50000x512),
    TRef.binary (.of main_v18 : TRef sig ⟨S50000x512, .f32⟩) main_call0.v0 main_call0.v1 maximumf,
    -- the second affine layer: the hidden array
    binary main_v19 main_arg4 main_v20 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    unary main_arg5 main_v21 (broadcastInDim S1x512 ![1] bcast_S512_S1x512_1 : (⟨S512, .f32⟩ : BufTy).Contents (Elt F) → (⟨S1x512, .f32⟩ : BufTy).Contents (Elt F)),
    unary main_v21 main_v22 (broadcastInDim S50000x512 ![0, 1] bcast_S1x512_S50000x512_0_1 : (⟨S1x512, .f32⟩ : BufTy).Contents (Elt F) → (⟨S50000x512, .f32⟩ : BufTy).Contents (Elt F)),
    binary main_v20 main_v22 main_v23 (addf : (⟨S50000x512, .f32⟩ : BufTy).Contents (Elt F) → (⟨S50000x512, .f32⟩ : BufTy).Contents (Elt F) → (⟨S50000x512, .f32⟩ : BufTy).Contents (Elt F)),
    -- the column mean of the hidden array
    nullary main_cst_1 (constant S_ .f32 0x00000000#32),
    binary main_v23 main_cst_1 main_v24 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    nullary main_cst_2 (constant S_ .f32 0x47435000#32),
    unary main_cst_2 main_v25 (broadcastInDim S512 ![] bcast_S_S512 : (⟨S_, .f32⟩ : BufTy).Contents (Elt F) → (⟨S512, .f32⟩ : BufTy).Contents (Elt F)),
    binary main_v24 main_v25 main_v26 (Host.divf : (⟨S512, .f32⟩ : BufTy).Contents (Elt F) → (⟨S512, .f32⟩ : BufTy).Contents (Elt F) → (⟨S512, .f32⟩ : BufTy).Contents (Elt F)),
    nullary main_c_3 (constantI S_ 32 0#32),
    -- the column variance of the hidden array: its nineteen operations
    TRef.nullary main_call1.cst (constant S_ .f32 0x00000000#32),
    TRef.binary (.of main_v23 : TRef sig ⟨S50000x512, .f32⟩) main_call1.cst main_call1.v0 (fun x v => Host.reduceAdd x v reducesTo_S50000x512_S512_d0 h_S_),
    TRef.unary main_call1.v0 main_call1.v1 (broadcastInDim S1x512 ![1] bcast_S512_S1x512_1),
    TRef.nullary main_call1.cst_0 (constant S_ .f32 0x47435000#32),
    TRef.unary main_call1.cst_0 main_call1.v2 (broadcastInDim S1x512 ![] bcast_S_S1x512),
    TRef.binary main_call1.v1 main_call1.v2 main_call1.v3 Host.divf,
    TRef.unary main_call1.v3 main_call1.v4 (broadcastInDim S50000x512 ![0, 1] bcast_S1x512_S50000x512_0_1),
    TRef.binary (.of main_v23 : TRef sig ⟨S50000x512, .f32⟩) main_call1.v4 main_call1.v5 subf,
    TRef.binary main_call1.v5 main_call1.v5 main_call1.v6 mulf,
    TRef.unary (.of main_c_3 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x512_S512_d0 h_S_),
    TRef.unary main_call1.v8 main_call1.v10 (broadcastInDim S512 ![] bcast_S_S512),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    -- ... and the select it ends with: the quotient where the divisor is positive
    TRef.unary main_call1.cst_4 main_call1.call0.v0 id,
    TRef.unary main_call1.call0.v0 main_call1.call0.v1 (broadcastInDim S512 ![] bcast_S_S512),
    TRef.ternary main_call1.v12 main_call1.v11 main_call1.call0.v1 main_call1.call0.v2 (fun p a b => select (broadcastInDim S512 ![] bcast_S_S512 p) a b),
    -- the normalisation
    unary main_v26 main_v28 (broadcastInDim S1x512 ![1] bcast_S512_S1x512_1 : (⟨S512, .f32⟩ : BufTy).Contents (Elt F) → (⟨S1x512, .f32⟩ : BufTy).Contents (Elt F)),
    unary main_v28 main_v29 (broadcastInDim S50000x512 ![0, 1] bcast_S1x512_S50000x512_0_1 : (⟨S1x512, .f32⟩ : BufTy).Contents (Elt F) → (⟨S50000x512, .f32⟩ : BufTy).Contents (Elt F)),
    binary main_v23 main_v29 main_v30 (subf : (⟨S50000x512, .f32⟩ : BufTy).Contents (Elt F) → (⟨S50000x512, .f32⟩ : BufTy).Contents (Elt F) → (⟨S50000x512, .f32⟩ : BufTy).Contents (Elt F)),
    nullary main_cst_4 (constant S_ .f32 0x3727C5AC#32),
    unary main_cst_4 main_v31 (broadcastInDim S512 ![] bcast_S_S512 : (⟨S_, .f32⟩ : BufTy).Contents (Elt F) → (⟨S512, .f32⟩ : BufTy).Contents (Elt F)),
    binary main_v27 main_v31 main_v32 (addf : (⟨S512, .f32⟩ : BufTy).Contents (Elt F) → (⟨S512, .f32⟩ : BufTy).Contents (Elt F) → (⟨S512, .f32⟩ : BufTy).Contents (Elt F)),
    unary main_v32 main_v33 (Host.rsqrt : (⟨S512, .f32⟩ : BufTy).Contents (Elt F) → (⟨S512, .f32⟩ : BufTy).Contents (Elt F)),
    unary main_v33 main_v34 (broadcastInDim S1x512 ![1] bcast_S512_S1x512_1 : (⟨S512, .f32⟩ : BufTy).Contents (Elt F) → (⟨S1x512, .f32⟩ : BufTy).Contents (Elt F)),
    unary main_v34 main_v35 (broadcastInDim S50000x512 ![0, 1] bcast_S1x512_S50000x512_0_1 : (⟨S1x512, .f32⟩ : BufTy).Contents (Elt F) → (⟨S50000x512, .f32⟩ : BufTy).Contents (Elt F)),
    binary main_v30 main_v35 main_v36 (mulf : (⟨S50000x512, .f32⟩ : BufTy).Contents (Elt F) → (⟨S50000x512, .f32⟩ : BufTy).Contents (Elt F) → (⟨S50000x512, .f32⟩ : BufTy).Contents (Elt F)),
    unary main_arg6 main_v37 (broadcastInDim S1x512 ![1] bcast_S512_S1x512_1 : (⟨S512, .f32⟩ : BufTy).Contents (Elt F) → (⟨S1x512, .f32⟩ : BufTy).Contents (Elt F)),
    unary main_v37 main_v38 (broadcastInDim S50000x512 ![0, 1] bcast_S1x512_S50000x512_0_1 : (⟨S1x512, .f32⟩ : BufTy).Contents (Elt F) → (⟨S50000x512, .f32⟩ : BufTy).Contents (Elt F)),
    binary main_v36 main_v38 main_v39 (mulf : (⟨S50000x512, .f32⟩ : BufTy).Contents (Elt F) → (⟨S50000x512, .f32⟩ : BufTy).Contents (Elt F) → (⟨S50000x512, .f32⟩ : BufTy).Contents (Elt F)),
    unary main_arg7 main_v40 (broadcastInDim S1x512 ![1] bcast_S512_S1x512_1 : (⟨S512, .f32⟩ : BufTy).Contents (Elt F) → (⟨S1x512, .f32⟩ : BufTy).Contents (Elt F)),
    unary main_v40 main_v41 (broadcastInDim S50000x512 ![0, 1] bcast_S1x512_S50000x512_0_1 : (⟨S1x512, .f32⟩ : BufTy).Contents (Elt F) → (⟨S50000x512, .f32⟩ : BufTy).Contents (Elt F)),
    binary main_v39 main_v41 main_v42 (addf : (⟨S50000x512, .f32⟩ : BufTy).Contents (Elt F) → (⟨S50000x512, .f32⟩ : BufTy).Contents (Elt F) → (⟨S50000x512, .f32⟩ : BufTy).Contents (Elt F)),
    -- the rectifier, second call
    TRef.nullary main_call2.cst (constant S_ .f32 0x00000000#32),
    TRef.unary main_call2.cst main_call2.v0 (broadcastInDim S50000x512 ![] bcast_S_S50000x512),
    TRef.binary (.of main_v42 : TRef sig ⟨S50000x512, .f32⟩) main_call2.v0 main_call2.v1 maximumf,
    -- the classifier
    binary main_v43 main_arg8 main_v44 ((fun l r => Host.dotGeneral dot_S50000x512_S512x2_S50000x2_1_0_0_1_n_n none l r) : (⟨S50000x512, .f32⟩ : BufTy).Contents (Elt F) → (⟨S512x2, .f32⟩ : BufTy).Contents (Elt F) → (⟨S50000x2, .f32⟩ : BufTy).Contents (Elt F)),
    unary main_arg9 main_v45 (broadcastInDim S1x2 ![1] bcast_S2_S1x2_1 : (⟨S2, .f32⟩ : BufTy).Contents (Elt F) → (⟨S1x2, .f32⟩ : BufTy).Contents (Elt F)),
    unary main_v45 main_v46 (broadcastInDim S50000x2 ![0, 1] bcast_S1x2_S50000x2_0_1 : (⟨S1x2, .f32⟩ : BufTy).Contents (Elt F) → (⟨S50000x2, .f32⟩ : BufTy).Contents (Elt F)),
    binary main_v44 main_v46 main_v47 (addf : (⟨S50000x2, .f32⟩ : BufTy).Contents (Elt F) → (⟨S50000x2, .f32⟩ : BufTy).Contents (Elt F) → (⟨S50000x2, .f32⟩ : BufTy).Contents (Elt F)) ]

-- eighty binds re-associated: the rewrite under the chain recurses once per statement
set_option maxRecDepth 4096 in
set_option maxHeartbeats 2000000 in
/-- @main is that straight line: with the three callees' definitions unfolded at their calls and the sequencing
    re-associated, both sides are one chain of the same eighty steps. -/
theorem main_eq (c : Dev nD) : main (F := F) c = seq ops := by
  simp only [main, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub ..,
    unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub ..⟩

/-- On the one device, for any float values, from any memory with zero counters: every weakly fair execution of
    @main terminates, and every final state has each buffer at the fold of the eighty operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's result as the specification's function of its arguments.

  Reading the eighty operations' fold at the result buffer gives one composed term over the launch contents.  Three
  pieces of it are named and never opened: the features after the neighbour sum (the gather by source node, the
  scatter-add by destination node, the sum with the features), the column mean of the hidden array, and its column
  variance.  Around them the term is dense algebra read entry by entry: two affine layers with a rectifier between
  them (the hidden array), then the normalisation by the given statistics, the rectifier and the classifier (the
  logits).  Each of the two stretches is proved equal to the specification's function over VARIABLES, so the big
  subterms are never compared by unfolding; the run's postcondition follows by monotonicity.
-/
import proofs.«140164_j23665269801081_1_alg».proof.Proof.RefRun
import proofs.«140164_j23665269801081_1_alg».proof.Proof.Spec
import proofs.«140164_j23665269801081_1_alg».proof.Proof.LibPlainDot
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws
import Idealize.ShloMosaic.Lib.StableHlo.Run

noncomputable section

open scoped BigOperators

namespace Cert.ReferenceIdeal.RefValue

open Cert.ReferenceIdeal Cert.ReferenceIdeal.Gen Cert.ReferenceIdeal.RefRun Idealize.ShloMosaic Idealize.ShloMosaic.TcCoe
  Idealize.ShloMosaic.ValueIdx Idealize.SL.Sem Idealize.ShloMosaic.StableHlo

/-! ## The three named pieces -/

/-- The features after the neighbour sum, as a function of the features and the edge list, operation by operation:
    the edge list's two rows as vectors of node numbers; a negative source number counted from the end; the source
    rows gathered; those rows summed into their destination rows of a zero array; the features added. -/
def pre (x : FVec Ideal S50000x64 .f32) (ei : IVec S2x800000 32) : FVec Ideal S50000x64 .f32 :=
  addf x
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 fun i =>
        shapeCast S800000 (extractStridedSlice S1x800000 ![1, 0] ei slices_S2x800000_S1x800000_1_0) shapeCasts_S1x800000_S800000 i)
      (Host.gather gather_S50000x64_S800000x1_S800000x64_1_0_n_n_0_1_164 x
        (broadcastInDim S800000x1 ![0] bcast_S800000_S800000x1_0
          (select
            (cmpi .slt
              (fun i => shapeCast S800000 (extractStridedSlice S1x800000 ![0, 0] ei slices_S2x800000_S1x800000_0_0) shapeCasts_S1x800000_S800000 i)
              (broadcastInDim S800000 ![] bcast_S_S800000 (constantI S_ 32 0#32)))
            (addi
              (fun i => shapeCast S800000 (extractStridedSlice S1x800000 ![0, 0] ei slices_S2x800000_S1x800000_0_0) shapeCasts_S1x800000_S800000 i)
              (broadcastInDim S800000 ![] bcast_S_S800000 (constantI S_ 32 50000#32)))
            fun i => shapeCast S800000 (extractStridedSlice S1x800000 ![0, 0] ei slices_S2x800000_S1x800000_0_0) shapeCasts_S1x800000_S800000 i))))

/-- The column mean of the hidden array: the column sums divided by the number of rows. -/
def colMean (h : FVec Ideal S50000x512 .f32) : FVec Ideal S512 .f32 :=
  Host.divf (Host.reduceAdd h (constant S_ .f32 0x00000000#32) reducesTo_S50000x512_S512_d0 h_S_)
    (broadcastInDim S512 ![] bcast_S_S512 (constant S_ .f32 0x47435000#32))

/-- The column variance of the hidden array, operation by operation: the column sums of the squared deviations from
    the column mean (itself the column sums laid out as one row and divided by the number of rows), divided by the
    number of rows less the correction (the integer zero converted), where that divisor is positive, and the
    not-a-number word elsewhere. -/
def colVar (h : FVec Ideal S50000x512 .f32) : FVec Ideal S512 .f32 :=
  select
    (broadcastInDim S512 ![] bcast_S_S512
      (cmpf .ogt
        (subf (constant (F := Ideal) S_ .f32 0x47435000#32) (sitofp .f32 (constantI S_ 32 0#32)))
        (constant (F := Ideal) S_ .f32 0x00000000#32)))
    (Host.divf
      (Host.reduceAdd
        (mulf
          (subf h
            (broadcastInDim S50000x512 ![0, 1] bcast_S1x512_S50000x512_0_1
              (Host.divf
                (broadcastInDim S1x512 ![1] bcast_S512_S1x512_1
                  (Host.reduceAdd h (constant S_ .f32 0x00000000#32) reducesTo_S50000x512_S512_d0 h_S_))
                (broadcastInDim S1x512 ![] bcast_S_S1x512 (constant S_ .f32 0x47435000#32)))))
          (subf h
            (broadcastInDim S50000x512 ![0, 1] bcast_S1x512_S50000x512_0_1
              (Host.divf
                (broadcastInDim S1x512 ![1] bcast_S512_S1x512_1
                  (Host.reduceAdd h (constant S_ .f32 0x00000000#32) reducesTo_S50000x512_S512_d0 h_S_))
                (broadcastInDim S1x512 ![] bcast_S_S1x512 (constant S_ .f32 0x47435000#32))))))
        (constant S_ .f32 0x00000000#32) reducesTo_S50000x512_S512_d0 h_S_)
      (broadcastInDim S512 ![] bcast_S_S512
        (subf (constant S_ .f32 0x47435000#32) (sitofp .f32 (constantI S_ 32 0#32)))))
    (broadcastInDim S512 ![] bcast_S_S512 (id (constant S_ .f32 0x7FC00000#32)))

/-! ## Reading the host's broadcasts and elementwise operations at an entry -/

/-- A vector laid out as a one-row matrix, read in that row, is the vector's entry. -/
theorem bcastRow_apply {α : Type} {n : Nat} (h : (⟨1, ![n]⟩ : Shape).BroadcastsInDim ⟨2, ![1, n]⟩ ![1])
    (b : (⟨1, ![n]⟩ : Shape).Idx → α) (t : Fin n) :
    broadcastInDim ⟨2, ![1, n]⟩ ![1] h b (ix2 (0 : Fin 1) t) = b (ix1 t) := by
  refine broadcastInDim_apply ![1] h b (ix2 (0 : Fin 1) t) (ix1 t) ?_
  intro a
  match a with
  | ⟨0, _⟩ =>
    show t.val = if n = 1 then 0 else t.val
    split
    · have := t.isLt; omega
    · rfl

/-- A vector laid along each of \`m\` rows (first as one row, then down the rows), read at (r, t), is its entry t. -/
theorem bcastRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (t : Fin n) :
    broadcastInDim ⟨2, ![m, n]⟩ ![0, 1] h2 (broadcastInDim ⟨2, ![1, n]⟩ ![1] h1 b) (ix2 r t) = b (ix1 t) :=
  (broadcastInDim_oneRow_apply h2 _ r t).trans (bcastRow_apply h1 b t)

/-- The host's reciprocal square root at an entry. -/
theorem hostRsqrt_apply {s : Shape} {φ : FTy} (x : FVec Ideal s φ) (i : s.Idx) : Host.rsqrt x i = Ideal.rsqrt (x i) := rfl

/-- The host's plain matrix product at an entry: the textbook sum. -/
theorem hostDot_apply {M K N : Nat} {d : DotDims ⟨2, ![M, K]⟩ ⟨2, ![K, N]⟩ ⟨2, ![M, N]⟩} (hd : PlainDot.IsPlain d)
    {φ₁ φ₂ : FTy} (prec : Option ContractPrecision) (lhs : FVec Ideal ⟨2, ![M, K]⟩ φ₁) (rhs : FVec Ideal ⟨2, ![K, N]⟩ φ₂)
    (p : Fin M) (q : Fin N) :
    Host.dotGeneral d prec lhs rhs (ix2 p q) = ∑ i : Fin K, lhs (ix2 p i) * rhs (ix2 i q) :=
  PlainDot.dotGeneral_apply hd prec .single lhs rhs p q

theorem plain1 : PlainDot.IsPlain dot_S50000x64_S64x512_S50000x512_1_0_0_1_n_n := ⟨rfl, rfl, rfl, rfl, rfl, rfl⟩
theorem plain2 : PlainDot.IsPlain dot_S50000x512_S512x512_S50000x512_1_0_0_1_n_n := ⟨rfl, rfl, rfl, rfl, rfl, rfl⟩
theorem plain3 : PlainDot.IsPlain dot_S50000x512_S512x2_S50000x2_1_0_0_1_n_n := ⟨rfl, rfl, rfl, rfl, rfl, rfl⟩

/-! ## The two dense stretches are the specification's -/

/-- The two affine layers with the rectifier between them, on ANY feature array, are the specification's perceptron. -/
theorem hidden_eq (X : FVec Ideal S50000x64 .f32) (W1 : FVec Ideal S64x512 .f32) (b1 : FVec Ideal S512 .f32)
    (W2 : FVec Ideal S512x512 .f32) (b2 : FVec Ideal S512 .f32) :
    addf (Host.dotGeneral dot_S50000x512_S512x512_S50000x512_1_0_0_1_n_n none
        (maximumf
          (addf (Host.dotGeneral dot_S50000x64_S64x512_S50000x512_1_0_0_1_n_n none X W1)
            (broadcastInDim S50000x512 ![0, 1] bcast_S1x512_S50000x512_0_1 (broadcastInDim S1x512 ![1] bcast_S512_S1x512_1 b1)))
          (broadcastInDim S50000x512 ![] bcast_S_S50000x512 (constant (F := Ideal) S_ .f32 0x00000000#32)))
        W2)
      (broadcastInDim S50000x512 ![0, 1] bcast_S1x512_S50000x512_0_1 (broadcastInDim S1x512 ![1] bcast_S512_S1x512_1 b2))
      = GinSpec.hidden X W1 b1 W2 b2 := by
  funext i
  obtain ⟨p, q, rfl⟩ : ∃ p q, i = ix2 p q := ⟨i 0, i 1, eq_ix2 i⟩
  rw [GinSpec.hidden_apply, addf_apply, hostDot_apply plain2, bcastRows_apply]
  unfold GinSpec.hiddenAt GinSpec.denseAt
  refine congrArg (· + b2 (ix1 q)) (Finset.sum_congr rfl fun k _ => ?_)
  rw [maximumf_apply, addf_apply, hostDot_apply plain1, bcastRows_apply, broadcastInDim_scalar_apply, constant_apply]

/-- The normalisation, the rectifier and the classifier, on ANY hidden array and ANY statistics, are the
    specification's logits. -/
theorem logits_eq (h : FVec Ideal S50000x512 .f32) (mean var γ β : FVec Ideal S512 .f32) (Wc : FVec Ideal S512x2 .f32)
    (bc : FVec Ideal S2 .f32) :
    addf (Host.dotGeneral dot_S50000x512_S512x2_S50000x2_1_0_0_1_n_n none
        (maximumf
          (addf
            (mulf
              (mulf
                (subf h (broadcastInDim S50000x512 ![0, 1] bcast_S1x512_S50000x512_0_1 (broadcastInDim S1x512 ![1] bcast_S512_S1x512_1 mean)))
                (broadcastInDim S50000x512 ![0, 1] bcast_S1x512_S50000x512_0_1 (broadcastInDim S1x512 ![1] bcast_S512_S1x512_1
                  (Host.rsqrt (addf var (broadcastInDim S512 ![] bcast_S_S512 (constant (F := Ideal) S_ .f32 0x3727C5AC#32)))))))
              (broadcastInDim S50000x512 ![0, 1] bcast_S1x512_S50000x512_0_1 (broadcastInDim S1x512 ![1] bcast_S512_S1x512_1 γ)))
            (broadcastInDim S50000x512 ![0, 1] bcast_S1x512_S50000x512_0_1 (broadcastInDim S1x512 ![1] bcast_S512_S1x512_1 β)))
          (broadcastInDim S50000x512 ![] bcast_S_S50000x512 (constant (F := Ideal) S_ .f32 0x00000000#32)))
        Wc)
      (broadcastInDim S50000x2 ![0, 1] bcast_S1x2_S50000x2_0_1 (broadcastInDim S1x2 ![1] bcast_S2_S1x2_1 bc))
      = GinSpec.logits h mean var γ β Wc bc := by
  funext i
  obtain ⟨p, c, rfl⟩ : ∃ p c, i = ix2 p c := ⟨i 0, i 1, eq_ix2 i⟩
  rw [GinSpec.logits_apply, addf_apply, hostDot_apply plain3, bcastRows_apply]
  unfold GinSpec.logitsAt GinSpec.normAt
  refine congrArg (· + bc (ix1 c)) (Finset.sum_congr rfl fun k _ => ?_)
  rw [maximumf_apply, addf_apply, mulf_apply, mulf_apply, subf_apply, bcastRows_apply, bcastRows_apply, bcastRows_apply,
    bcastRows_apply, hostRsqrt_apply, addf_apply, broadcastInDim_scalar_apply, constant_apply,
    broadcastInDim_scalar_apply, constant_apply]

/-! ## The fold at the result buffer -/

-- the three pieces' reductions, gathers and scatters are sums and searches over whole arrays: nothing here looks inside them
attribute [local irreducible] Host.gather Host.scatterAdd Host.reduceAdd in
set_option maxRecDepth 8192 in
set_option maxHeartbeats 4000000 in
/-- What the result buffer holds after the eighty operations: the specification's logits of the specification's
    hidden array of the aggregated features, at the hidden array's own column statistics. -/
theorem result_eq (V : Valuation τ sig (Elt Ideal)) :
    after (ops (F := Ideal)) V (main_v47 : DevRef τ sig)
      = GinSpec.logits
          (GinSpec.hidden (pre (V (main_arg0 : DevRef τ sig)) (V (main_arg1 : DevRef τ sig))) (V (main_arg2 : DevRef τ sig))
            (V (main_arg3 : DevRef τ sig)) (V (main_arg4 : DevRef τ sig)) (V (main_arg5 : DevRef τ sig)))
          (colMean (GinSpec.hidden (pre (V (main_arg0 : DevRef τ sig)) (V (main_arg1 : DevRef τ sig))) (V (main_arg2 : DevRef τ sig))
            (V (main_arg3 : DevRef τ sig)) (V (main_arg4 : DevRef τ sig)) (V (main_arg5 : DevRef τ sig))))
          (colVar (GinSpec.hidden (pre (V (main_arg0 : DevRef τ sig)) (V (main_arg1 : DevRef τ sig))) (V (main_arg2 : DevRef τ sig))
            (V (main_arg3 : DevRef τ sig)) (V (main_arg4 : DevRef τ sig)) (V (main_arg5 : DevRef τ sig))))
          (V (main_arg6 : DevRef τ sig)) (V (main_arg7 : DevRef τ sig)) (V (main_arg8 : DevRef τ sig))
          (V (main_arg9 : DevRef τ sig)) := by
  after_results_simp
  simp only [TRef.toBuf, TRef.ofBuf, cast_eq]
  rw [hidden_eq]
  exact logits_eq _ _ _ _ _ _ _

/-! ## The arguments are left as they were -/

/-- No operation writes an argument's buffer: after the eighty operations each argument holds what it held. -/
theorem arg0_eq (V : Valuation τ sig (Elt Ideal)) :
    after (ops (F := Ideal)) V (main_arg0 : DevRef τ sig) = V (main_arg0 : DevRef τ sig) := by after_results_simp
theorem arg1_eq (V : Valuation τ sig (Elt Ideal)) :
    after (ops (F := Ideal)) V (main_arg1 : DevRef τ sig) = V (main_arg1 : DevRef τ sig) := by after_results_simp
theorem arg2_eq (V : Valuation τ sig (Elt Ideal)) :
    after (ops (F := Ideal)) V (main_arg2 : DevRef τ sig) = V (main_arg2 : DevRef τ sig) := by after_results_simp
theorem arg3_eq (V : Valuation τ sig (Elt Ideal)) :
    after (ops (F := Ideal)) V (main_arg3 : DevRef τ sig) = V (main_arg3 : DevRef τ sig) := by after_results_simp
theorem arg4_eq (V : Valuation τ sig (Elt Ideal)) :
    after (ops (F := Ideal)) V (main_arg4 : DevRef τ sig) = V (main_arg4 : DevRef τ sig) := by after_results_simp
theorem arg5_eq (V : Valuation τ sig (Elt Ideal)) :
    after (ops (F := Ideal)) V (main_arg5 : DevRef τ sig) = V (main_arg5 : DevRef τ sig) := by after_results_simp
theorem arg6_eq (V : Valuation τ sig (Elt Ideal)) :
    after (ops (F := Ideal)) V (main_arg6 : DevRef τ sig) = V (main_arg6 : DevRef τ sig) := by after_results_simp
theorem arg7_eq (V : Valuation τ sig (Elt Ideal)) :
    after (ops (F := Ideal)) V (main_arg7 : DevRef τ sig) = V (main_arg7 : DevRef τ sig) := by after_results_simp
theorem arg8_eq (V : Valuation τ sig (Elt Ideal)) :
    after (ops (F := Ideal)) V (main_arg8 : DevRef τ sig) = V (main_arg8 : DevRef τ sig) := by after_results_simp
theorem arg9_eq (V : Valuation τ sig (Elt Ideal)) :
    after (ops (F := Ideal)) V (main_arg9 : DevRef τ sig) = V (main_arg9 : DevRef τ sig) := by after_results_simp

/-! ## The run -/

/-- On the one device, from any memory with zero counters: every weakly fair execution of the reference terminates
    with the result buffer at the specification's logits — of the specification's hidden array of the aggregated
    features, at that array's own column mean and variance — and the ten arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47)
          = GinSpec.logits
              (GinSpec.hidden (pre (m ((c.tc : Thread nD τ).loc main_arg0)) (m ((c.tc : Thread nD τ).loc main_arg1))) (m ((c.tc : Thread nD τ).loc main_arg2)) (m ((c.tc : Thread nD τ).loc main_arg3))
                (m ((c.tc : Thread nD τ).loc main_arg4)) (m ((c.tc : Thread nD τ).loc main_arg5)))
              (colMean (GinSpec.hidden (pre (m ((c.tc : Thread nD τ).loc main_arg0)) (m ((c.tc : Thread nD τ).loc main_arg1))) (m ((c.tc : Thread nD τ).loc main_arg2)) (m ((c.tc : Thread nD τ).loc main_arg3))
                (m ((c.tc : Thread nD τ).loc main_arg4)) (m ((c.tc : Thread nD τ).loc main_arg5))))
              (colVar (GinSpec.hidden (pre (m ((c.tc : Thread nD τ).loc main_arg0)) (m ((c.tc : Thread nD τ).loc main_arg1))) (m ((c.tc : Thread nD τ).loc main_arg2)) (m ((c.tc : Thread nD τ).loc main_arg3))
                (m ((c.tc : Thread nD τ).loc main_arg4)) (m ((c.tc : Thread nD τ).loc main_arg5))))
              (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v47).trans (result_eq (launchContents m c)),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _)⟩)
    (run_main (F := Ideal) m ρ)

end Cert.ReferenceIdeal.RefValue

end
-- ==== Proof.lean ====
/-
  One graph-isomorphism layer with batch normalisation and a linear classifier: two tiled kernels against the
  plain array program.

  Both programs first add to every node's features the features of its in-neighbours (a gather along the edge
  table's source row and a scatter-add along its destination row), then apply a two-layer perceptron to every row,
  take the column mean and variance of the result, normalise, rectify, and apply a linear classifier to every row.
  The kernel program runs the perceptron and the normalise-and-classify stage each as a kernel over 25 tiles of 2000
  rows, with the neighbour sum and the column statistics on the host; the reference runs everything on whole arrays.
  Read over the extended reals, where a change of float format is the identity and a matrix product is the textbook
  sum, both results are the same function of the arguments, entry by entry:
    `logits (hidden (pre x edges) W₁ b₁ W₂ b₂) (mean ·) (var ·) γ β W_c b_c`  (Proof/Spec.lean),
  because a row of the perceptron, and a row of the classifier, reads only the same row of its first operand, so the
  tiles are exactly the rows of the whole-array result, and they cover the array.  The neighbour sum and the two
  column statistics are never opened: they are the same operations in both programs (`pre_eq`, `colMean_eq`,
  `colVar_eq`), applied to equal arrays.  No algebraic law is used and the inputs' finiteness is not needed.

  The kernel program's run is its frame's run with the result buffer read beside the arguments (Proof/KRun.lean);
  its value is read boundary by boundary (Proof/KValue.lean over KRegion0, KRegion1, KHost, KBody).  The reference's
  run is its operations in sequence (Proof/RefRun.lean) and its value the same function (Proof/RefValue.lean).  The
  kernel's idealisation rewrote nothing, so nothing is to preserve.
-/
import proofs.«140164_j23665269801081_1_alg».proof.Defs
import proofs.«140164_j23665269801081_1_alg».proof.Proof.Gen.Kernel
import proofs.«140164_j23665269801081_1_alg».proof.Proof.Gen.Kernel.Skeleton
import proofs.«140164_j23665269801081_1_alg».proof.Proof.Gen.Kernel.Launch
import proofs.«140164_j23665269801081_1_alg».proof.Proof.Gen.Kernel.Points
import proofs.«140164_j23665269801081_1_alg».proof.Proof.Gen.Kernel.Frame
import proofs.«140164_j23665269801081_1_alg».proof.Proof.Gen.KernelIdeal
import proofs.«140164_j23665269801081_1_alg».proof.Proof.Gen.KernelIdeal.Skeleton
import proofs.«140164_j23665269801081_1_alg».proof.Proof.Gen.KernelIdeal.Launch
import proofs.«140164_j23665269801081_1_alg».proof.Proof.Gen.KernelIdeal.Points
import proofs.«140164_j23665269801081_1_alg».proof.Proof.Gen.KernelIdeal.Frame
import proofs.«140164_j23665269801081_1_alg».proof.Proof.Gen.ReferenceIdeal
import proofs.«140164_j23665269801081_1_alg».proof.Proof.Gen.Pre_finite_inputs
import proofs.«140164_j23665269801081_1_alg».proof.Proof.KValue
import proofs.«140164_j23665269801081_1_alg».proof.Proof.RefValue
import Idealize.ShloMosaic.Adequacy
import Idealize.ShloMosaic.Init

noncomputable section

namespace Cert.Proof

open Idealize.ShloMosaic Idealize.SL.Sem

/-! ## The shared host functions are the same in both programs -/

attribute [local irreducible] Host.reduceAdd Host.gather Host.scatterAdd in
/-- The neighbour sum: the same operations, each program's own copy of the shape facts. -/
theorem pre_eq (x : FVec Ideal Cert.KernelIdeal.S50000x64 .f32) (ei : IVec Cert.KernelIdeal.S2x800000 32) :
    Cert.KernelIdeal.KHost.pre x ei = Cert.ReferenceIdeal.RefValue.pre x ei := rfl

attribute [local irreducible] Host.reduceAdd in
/-- The column mean: the same operations. -/
theorem colMean_eq (h : FVec Ideal Cert.KernelIdeal.S50000x512 .f32) :
    Cert.KernelIdeal.KHost.colMean h = Cert.ReferenceIdeal.RefValue.colMean h := rfl

attribute [local irreducible] Host.reduceAdd in
/-- The column variance: the same operations. -/
theorem colVar_eq (h : FVec Ideal Cert.KernelIdeal.S50000x512 .f32) :
    Cert.KernelIdeal.KHost.colVar h = Cert.ReferenceIdeal.RefValue.colVar h := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefValue.run_value m ρ)

/-- Both runs end with the result at the specification's function of the arguments; the arguments agree. -/
theorem algebraic : Cert.algebraic_KernelIdeal_ReferenceIdeal := by
  intro m ρ m' ρ' _ hagree
  refine ⟨fun c => Cert.KernelIdeal.KValue.resultOf m c, Cert.KernelIdeal.KValue.run_value m ρ, ?_⟩
  refine (θ_run Cert.ReferenceIdeal.defs _ _).mono (fun _ h c => ⟨(h c).1.trans ?_, (h c).2⟩)
    (Cert.ReferenceIdeal.RefValue.run_value m' ρ')
  obtain ⟨h0, h1, h2, h3, h4, h5, h6, h7, h8, h9⟩ := hagree c
  rw [h0, h1, h2, h3, h4, h5, h6, h7, h8, h9, ← pre_eq, ← colMean_eq, ← colVar_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
